-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x128 : Shape := ⟨3, ![16, 10000, 128]⟩
abbrev S3x128x64 : Shape := ⟨3, ![3, 128, 64]⟩
abbrev S3x160000 : Shape := ⟨2, ![3, 160000]⟩
abbrev S_ : Shape := ⟨0, ![]⟩

class Facts : Prop where
  bcast_S_S16x10000x128 : S_.BroadcastsInDim S16x10000x128 (![] : Fin 0 → Fin S16x10000x128.rank)
  reducesTo_S16x10000x128_S_d0_1_2 : S16x10000x128.ReducesTo [0, 1, 2] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_
  bcast_S_S3x160000 : S_.BroadcastsInDim S3x160000 (![] : Fin 0 → Fin S3x160000.rank)
  reducesTo_S3x160000_S_d0_1 : S3x160000.ReducesTo [0, 1] S_

variable [Facts]

def fn {F : FTy → Type} [FloatOps F] (main_arg0 : FVec F S16x10000x128 .f32) (main_arg1 : FVec F S3x128x64 .f32) (main_arg2 : FVec F S3x160000 .f32) (main_arg3 : IVec S3x160000 32) (main_arg4 : IVec S3x160000 32) : IVec S_ 1 :=
  let main_v0 : FVec F S16x10000x128 .f32 := Host.absf main_arg0
  let main_cst : FVec F S_ .f32 := constant S_ .f32 0x7F800000#32
  let main_v1 : FVec F S16x10000x128 .f32 := broadcastInDim S16x10000x128 ![] bcast_S_S16x10000x128 main_cst
  let main_v2 : IVec S16x10000x128 1 := cmpf .olt main_v0 main_v1
  let main_c : IVec S_ 1 := constantI S_ 1 1#1
  let main_v3 : IVec S_ 1 := (fun x v => Host.reduce IntOp.andi x v reducesTo_S16x10000x128_S_d0_1_2 h_S_) main_v2 main_c
  let main_v4 : FVec F S3x128x64 .f32 := Host.absf main_arg1
  let main_cst_0 : FVec F S_ .f32 := constant S_ .f32 0x7F800000#32
  let main_v5 : FVec F S3x128x64 .f32 := broadcastInDim S3x128x64 ![] bcast_S_S3x128x64 main_cst_0
  let main_v6 : IVec S3x128x64 1 := cmpf .olt main_v4 main_v5
  let main_c_1 : IVec S_ 1 := constantI S_ 1 1#1
  let main_v7 : IVec S_ 1 := (fun x v => Host.reduce IntOp.andi x v reducesTo_S3x128x64_S_d0_1_2 h_S_) main_v6 main_c_1
  let main_v8 : IVec S_ 1 := andi main_v3 main_v7
  let main_v9 : FVec F S3x160000 .f32 := Host.absf main_arg2
  let main_cst_2 : FVec F S_ .f32 := constant S_ .f32 0x7F800000#32
  let main_v10 : FVec F S3x160000 .f32 := broadcastInDim S3x160000 ![] bcast_S_S3x160000 main_cst_2
  let main_v11 : IVec S3x160000 1 := cmpf .olt main_v9 main_v10
  let main_c_3 : IVec S_ 1 := constantI S_ 1 1#1
  let main_v12 : IVec S_ 1 := (fun x v => Host.reduce IntOp.andi x v reducesTo_S3x160000_S_d0_1 h_S_) main_v11 main_c_3
  let main_v13 : IVec S_ 1 := andi main_v8 main_v12
  main_v13
-- ==== Kernel.lean ====
abbrev S16x10000x128 : Shape := ⟨3, ![16, 10000, 128]⟩
abbrev S3x128x64 : Shape := ⟨3, ![3, 128, 64]⟩
abbrev S3x160000 : Shape := ⟨2, ![3, 160000]⟩
abbrev S3x16x10000x64 : Shape := ⟨4, ![3, 16, 10000, 64]⟩
abbrev S16x400x128 : Shape := ⟨3, ![16, 400, 128]⟩
abbrev S1x128x64 : Shape := ⟨3, ![1, 128, 64]⟩
abbrev S1x16x400x64 : Shape := ⟨4, ![1, 16, 400, 64]⟩
abbrev S128x64 : Shape := ⟨2, ![128, 64]⟩
abbrev S6400x128 : Shape := ⟨2, ![6400, 128]⟩
abbrev S6400x64 : Shape := ⟨2, ![6400, 64]⟩
abbrev S16x400x64 : Shape := ⟨3, ![16, 400, 64]⟩
abbrev S3x10000x16x64 : Shape := ⟨4, ![3, 10000, 16, 64]⟩
abbrev S1x10000x16x64 : Shape := ⟨4, ![1, 10000, 16, 64]⟩
abbrev S10000x16x64 : Shape := ⟨3, ![10000, 16, 64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x16x64 : Shape := ⟨3, ![160000, 16, 64]⟩
abbrev S160000x1x1 : Shape := ⟨3, ![160000, 1, 1]⟩
abbrev S16x10000x64 : Shape := ⟨3, ![16, 10000, 64]⟩
abbrev S16x10000x192 : Shape := ⟨3, ![16, 10000, 192]⟩

abbrev nBuf : Space → Nat
  | .hbm => 83
  | .vmem => 6
  | .smem => 0
  | _ => 0

abbrev bufTy : (tb : Table) → Fin (tcTables nBuf tb) → BufTy
  | .hbm, ⟨0, _⟩ => ⟨S16x10000x128, .f32⟩
  | .hbm, ⟨1, _⟩ => ⟨S3x128x64, .f32⟩
  | .hbm, ⟨2, _⟩ => ⟨S3x160000, .f32⟩
  | .hbm, ⟨3, _⟩ => ⟨S3x160000, .i32⟩
  | .hbm, ⟨4, _⟩ => ⟨S3x160000, .i32⟩
  | .hbm, ⟨5, _⟩ => ⟨S3x16x10000x64, .f32⟩
  | .hbm, ⟨6, _⟩ => ⟨S3x10000x16x64, .f32⟩
  | .hbm, ⟨7, _⟩ => ⟨S1x10000x16x64, .f32⟩
  | .hbm, ⟨8, _⟩ => ⟨S10000x16x64, .f32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x16x64, .f32⟩
  | .hbm, ⟨20, _⟩ => ⟨S1x160000, .f32⟩
  | .hbm, ⟨21, _⟩ => ⟨S160000, .f32⟩
  | .hbm, ⟨22, _⟩ => ⟨S160000x1x1, .f32⟩
  | .hbm, ⟨23, _⟩ => ⟨S160000x16x64, .f32⟩
  | .hbm, ⟨24, _⟩ => ⟨S160000x16x64, .f32⟩
  | .hbm, ⟨25, _⟩ => ⟨S1x160000, .i32⟩
  | .hbm, ⟨26, _⟩ => ⟨S160000, .i32⟩
  | .hbm, ⟨27, _⟩ => ⟨S_, .f32⟩
  | .hbm, ⟨28, _⟩ => ⟨S10000x16x64, .f32⟩
  | .hbm, ⟨29, _⟩ => ⟨S160000x1, .i32⟩
  | .hbm, ⟨30, _⟩ => ⟨S10000x16x64, .f32⟩
  | .hbm, ⟨31, _⟩ => ⟨S16x10000x64, .f32⟩
  | .hbm, ⟨32, _⟩ => ⟨S1x10000x16x64, .f32⟩
  | .hbm, ⟨33, _⟩ => ⟨S10000x16x64, .f32⟩
  | .hbm, ⟨34, _⟩ => ⟨S1x160000, .i32⟩
  | .hbm, ⟨35, _⟩ => ⟨S160000, .i32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x16x64, .f32⟩
  | .hbm, ⟨45, _⟩ => ⟨S1x160000, .f32⟩
  | .hbm, ⟨46, _⟩ => ⟨S160000, .f32⟩
  | .hbm, ⟨47, _⟩ => ⟨S160000x1x1, .f32⟩
  | .hbm, ⟨48, _⟩ => ⟨S160000x16x64, .f32⟩
  | .hbm, ⟨49, _⟩ => ⟨S160000x16x64, .f32⟩
  | .hbm, ⟨50, _⟩ => ⟨S1x160000, .i32⟩
  | .hbm, ⟨51, _⟩ => ⟨S160000, .i32⟩
  | .hbm, ⟨52, _⟩ => ⟨S_, .f32⟩
  | .hbm, ⟨53, _⟩ => ⟨S10000x16x64, .f32⟩
  | .hbm, ⟨54, _⟩ => ⟨S160000x1, .i32⟩
  | .hbm, ⟨55, _⟩ => ⟨S10000x16x64, .f32⟩
  | .hbm, ⟨56, _⟩ => ⟨S16x10000x64, .f32⟩
  | .hbm, ⟨57, _⟩ => ⟨S1x10000x16x64, .f32⟩
  | .hbm, ⟨58, _⟩ => ⟨S10000x16x64, .f32⟩
  | .hbm, ⟨59, _⟩ => ⟨S1x160000, .i32⟩
  | .hbm, ⟨60, _⟩ => ⟨S160000, .i32⟩
  | .hbm, ⟨61, _⟩ => ⟨S_, .i32⟩
  | .hbm, ⟨62, _⟩ => ⟨S160000, .i32⟩
  | .hbm, ⟨63, _⟩ => ⟨S160000, .i1⟩
  | .hbm, ⟨64, _⟩ => ⟨S_, .i32⟩
  | .hbm, ⟨65, _⟩ => ⟨S160000, .i32⟩
  | .hbm, ⟨66, _⟩ => ⟨S160000, .i32⟩
  | .hbm, ⟨67, _⟩ => ⟨S160000, .i32⟩
  | .hbm, ⟨68, _⟩ => ⟨S160000x1, .i32⟩
  | .hbm, ⟨69, _⟩ => ⟨S160000x16x64, .f32⟩
  | .hbm, ⟨70, _⟩ => ⟨S1x160000, .f32⟩
  | .hbm, ⟨71, _⟩ => ⟨S160000, .f32⟩
  | .hbm, ⟨72, _⟩ => ⟨S160000x1x1, .f32⟩
  | .hbm, ⟨73, _⟩ => ⟨S160000x16x64, .f32⟩
  | .hbm, ⟨74, _⟩ => ⟨S160000x16x64, .f32⟩
  | .hbm, ⟨75, _⟩ => ⟨S1x160000, .i32⟩
  | .hbm, ⟨76, _⟩ => ⟨S160000, .i32⟩
  | .hbm, ⟨77, _⟩ => ⟨S_, .f32⟩
  | .hbm, ⟨78, _⟩ => ⟨S10000x16x64, .f32⟩
  | .hbm, ⟨79, _⟩ => ⟨S160000x1, .i32⟩
  | .hbm, ⟨80, _⟩ => ⟨S10000x16x64, .f32⟩
  | .hbm, ⟨81, _⟩ => ⟨S16x10000x64, .f32⟩
  | .hbm, ⟨82, _⟩ => ⟨S16x10000x192, .f32⟩
  | .local _ .vmem, ⟨0, _⟩ => ⟨S16x400x128, .f32⟩
  | .local _ .vmem, ⟨1, _⟩ => ⟨S16x400x128, .f32⟩
  | .local _ .vmem, ⟨2, _⟩ => ⟨S1x128x64, .f32⟩
  | .local _ .vmem, ⟨3, _⟩ => ⟨S1x128x64, .f32⟩
  | .local _ .vmem, ⟨4, _⟩ => ⟨S1x16x400x64, .f32⟩
  | .local _ .vmem, ⟨5, _⟩ => ⟨S1x16x400x64, .f32⟩
  | _, _ => ⟨S16x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_4 : Ref sig .tc := ⟨.hbm, 61, rfl⟩
abbrev main_v50 : Ref sig .tc := ⟨.hbm, 62, rfl⟩
abbrev main_v51 : Ref sig .tc := ⟨.hbm, 63, rfl⟩
abbrev main_c_5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_6 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S16x400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S16x400x128_S16x400x128_0_0_0 : ∀ a, (![0, 0, 0] : Fin 3 → Nat) a + S16x400x128.size a ≤ S16x400x128.size a
  h_S16x400x128 : 0 < S16x400x128.numel
  bitsLt_bf16_f32 : FTy.bits .bf16 < FTy.bits .f32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S16x400x128_S6400x128 : S16x400x128.ShapeCasts S6400x128
  shapeCasts_S6400x64_S16x400x64 : S6400x64.ShapeCasts S16x400x64
  inb_S1x16x400x64_S1x16x400x64_0_0_0_0 : ∀ a, (![0, 0, 0, 0] : Fin 4 → Nat) a + S1x16x400x64.size a ≤ S1x16x400x64.size a
  h_S1x16x400x64 : 0 < S1x16x400x64.numel
  shapeCasts_S1x16x400x64_S16x400x64 : S1x16x400x64.ShapeCasts S16x400x64
  shapeCasts_S16x400x64_S1x16x400x64 : S16x400x64.ShapeCasts S1x16x400x64
  transposes_S3x16x10000x64_S3x10000x16x64_0_2_1_3 : S3x16x10000x64.Transposes [0, 2, 1, 3] S3x10000x16x64
  slices_S3x10000x16x64_S1x10000x16x64_0_0_0_0 : S3x10000x16x64.Slices ![0, 0, 0, 0] S1x10000x16x64
  shapeCasts_S1x10000x16x64_S10000x16x64 : S1x10000x16x64.ShapeCasts S10000x16x64
  slices_S3x160000_S1x160000_0_0 : S3x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  bcast_S160000_S160000x1x1_0 : S160000.BroadcastsInDim S160000x1x1 (![0] : Fin 1 → Fin S160000x1x1.rank)
  bcast_S160000x1x1_S160000x16x64_0_1_2 : S160000x1x1.BroadcastsInDim S160000x16x64 (![0, 1, 2] : Fin 3 → Fin S160000x16x64.rank)
  bcast_S_S10000x16x64 : S_.BroadcastsInDim S10000x16x64 (![] : Fin 0 → Fin S10000x16x64.rank)
  transposes_S10000x16x64_S16x10000x64_1_0_2 : S10000x16x64.Transposes [1, 0, 2] S16x10000x64
  slices_S3x10000x16x64_S1x10000x16x64_1_0_0_0 : S3x10000x16x64.Slices ![1, 0, 0, 0] S1x10000x16x64
  slices_S3x160000_S1x160000_1_0 : S3x160000.Slices ![1, 0] S1x160000
  slices_S3x10000x16x64_S1x10000x16x64_2_0_0_0 : S3x10000x16x64.Slices ![2, 0, 0, 0] S1x10000x16x64
  slices_S3x160000_S1x160000_2_0 : S3x160000.Slices ![2, 0] S1x160000
  concatenates_S16x10000x64_S16x10000x64_S16x10000x64_S16x10000x192_d2 : Shape.Concatenates [S16x10000x64, S16x10000x64, S16x10000x64] S16x10000x192 2
  dot_S6400x128_S128x64_S6400x64_1_0_0_1_n_n_wf : DotDims.WF S6400x128 S128x64 S6400x64 [1] [0] [0] [1] [] []
  gather_S10000x16x64_S160000x1_S160000x16x64_12_0_n_n_0_1_11664_wf : GatherDims.WF S10000x16x64 S160000x1 S160000x16x64 [1, 2] [0] [] [0] [] 1 ![1, 16, 64]
  scatter_S10000x16x64_S160000x1_S160000x16x64_12_0_0_1_wf : ScatterDims.WF S10000x16x64 S160000x1 S160000x16x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x400x128.size a ≤ S16x10000x128.size a
  hwx0_0 : ∀ i : grid0.Coords, EltTy.bits .f32 = 32 ∨ (Rect.block (s := S16x10000x128) S16x400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S3x128x64.size a
  hwx0_1 : ∀ i : grid0.Coords, EltTy.bits .f32 = 32 ∨ (Rect.block (s := S3x128x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x400x64.size a ≤ S3x16x10000x64.size a
  hwx0_2 : ∀ i : grid0.Coords, EltTy.bits .f32 = 32 ∨ (Rect.block (s := S3x16x10000x64) S1x16x400x64.size (cc0_transform_2 i) (hinb0_2 i)).WholeWords (EltTy.packing .f32)

variable [Facts₀]

def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf
def gather_S10000x16x64_S160000x1_S160000x16x64_12_0_n_n_0_1_11664 : GatherDims S10000x16x64 S160000x1 S160000x16x64 where
  offsetDims := [1, 2]
  collapsedSliceDims := [0]
  operandBatchingDims := []
  startIndicesBatchingDims := []
  startIndexMap := [0]
  indexVectorDim := 1
  sliceSizes := ![1, 16, 64]
  wf := gather_S10000x16x64_S160000x1_S160000x16x64_12_0_n_n_0_1_11664_wf
def scatter_S10000x16x64_S160000x1_S160000x16x64_12_0_0_1 : ScatterDims S10000x16x64 S160000x1 S160000x16x64 where
  updateWindowDims := [1, 2]
  insertedWindowDims := [0]
  scatterDimsToOperandDims := [0]
  indexVectorDim := 1
  wf := scatter_S10000x16x64_S160000x1_S160000x16x64_12_0_0_1_wf

abbrev win0_0 : Pipeline.Window sig grid0 :=
  Pipeline.Window.ofSpec (Memref.whole main_arg0) S16x400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x400x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x10000x128 : Shape := ⟨3, ![16, 10000, 128]⟩
abbrev S3x128x64 : Shape := ⟨3, ![3, 128, 64]⟩
abbrev S3x160000 : Shape := ⟨2, ![3, 160000]⟩
abbrev S1x128x64 : Shape := ⟨3, ![1, 128, 64]⟩
abbrev S128x64 : Shape := ⟨2, ![128, 64]⟩
abbrev S64x16x10000 : Shape := ⟨3, ![64, 16, 10000]⟩
abbrev S10000x16x64 : Shape := ⟨3, ![10000, 16, 64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x16x64 : Shape := ⟨3, ![160000, 16, 64]⟩
abbrev S160000x1x1 : Shape := ⟨3, ![160000, 1, 1]⟩
abbrev S16x10000x64 : Shape := ⟨3, ![16, 10000, 64]⟩
abbrev S16x10000x192 : Shape := ⟨3, ![16, 10000, 192]⟩

abbrev nBuf : Space → Nat
  | .hbm => 87
  | .vmem => 0
  | .smem => 0
  | _ => 0

abbrev bufTy : (tb : Table) → Fin (tcTables nBuf tb) → BufTy
  | .hbm, ⟨0, _⟩ => ⟨S16x10000x128, .f32⟩
  | .hbm, ⟨1, _⟩ => ⟨S3x128x64, .f32⟩
  | .hbm, ⟨2, _⟩ => ⟨S3x160000, .f32⟩
  | .hbm, ⟨3, _⟩ => ⟨S3x160000, .i32⟩
  | .hbm, ⟨4, _⟩ => ⟨S3x160000, .i32⟩
  | .hbm, ⟨5, _⟩ => ⟨S1x128x64, .f32⟩
  | .hbm, ⟨6, _⟩ => ⟨S128x64, .f32⟩
  | .hbm, ⟨7, _⟩ => ⟨S64x16x10000, .f32⟩
  | .hbm, ⟨8, _⟩ => ⟨S10000x16x64, .f32⟩
  | .hbm, ⟨9, _⟩ => ⟨S1x160000, .i32⟩
  | .hbm, ⟨10, _⟩ => ⟨S160000, .i32⟩
  | .hbm, ⟨11, _⟩ => ⟨S_, .i32⟩
  | .hbm, ⟨12, _⟩ => ⟨S160000, .i32⟩
  | .hbm, ⟨13, _⟩ => ⟨S160000, .i1⟩
  | .hbm, ⟨14, _⟩ => ⟨S_, .i32⟩
  | .hbm, ⟨15, _⟩ => ⟨S160000, .i32⟩
  | .hbm, ⟨16, _⟩ => ⟨S160000, .i32⟩
  | .hbm, ⟨17, _⟩ => ⟨S160000, .i32⟩
  | .hbm, ⟨18, _⟩ => ⟨S160000x1, .i32⟩
  | .hbm, ⟨19, _⟩ => ⟨S160000x16x64, .f32⟩
  | .hbm, ⟨20, _⟩ => ⟨S1x160000, .f32⟩
  | .hbm, ⟨21, _⟩ => ⟨S160000, .f32⟩
  | .hbm, ⟨22, _⟩ => ⟨S160000x1x1, .f32⟩
  | .hbm, ⟨23, _⟩ => ⟨S160000x16x64, .f32⟩
  | .hbm, ⟨24, _⟩ => ⟨S160000x16x64, .f32⟩
  | .hbm, ⟨25, _⟩ => ⟨S1x160000, .i32⟩
  | .hbm, ⟨26, _⟩ => ⟨S160000, .i32⟩
  | .hbm, ⟨27, _⟩ => ⟨S_, .f32⟩
  | .hbm, ⟨28, _⟩ => ⟨S10000x16x64, .f32⟩
  | .hbm, ⟨29, _⟩ => ⟨S160000x1, .i32⟩
  | .hbm, ⟨30, _⟩ => ⟨S10000x16x64, .f32⟩
  | .hbm, ⟨31, _⟩ => ⟨S16x10000x64, .f32⟩
  | .hbm, ⟨32, _⟩ => ⟨S1x128x64, .f32⟩
  | .hbm, ⟨33, _⟩ => ⟨S128x64, .f32⟩
  | .hbm, ⟨34, _⟩ => ⟨S64x16x10000, .f32⟩
  | .hbm, ⟨35, _⟩ => ⟨S10000x16x64, .f32⟩
  | .hbm, ⟨36, _⟩ => ⟨S1x160000, .i32⟩
  | .hbm, ⟨37, _⟩ => ⟨S160000, .i32⟩
  | .hbm, ⟨38, _⟩ => ⟨S_, .i32⟩
  | .hbm, ⟨39, _⟩ => ⟨S160000, .i32⟩
  | .hbm, ⟨40, _⟩ => ⟨S160000, .i1⟩
  | .hbm, ⟨41, _⟩ => ⟨S_, .i32⟩
  | .hbm, ⟨42, _⟩ => ⟨S160000, .i32⟩
  | .hbm, ⟨43, _⟩ => ⟨S160000, .i32⟩
  | .hbm, ⟨44, _⟩ => ⟨S160000, .i32⟩
  | .hbm, ⟨45, _⟩ => ⟨S160000x1, .i32⟩
  | .hbm, ⟨46, _⟩ => ⟨S160000x16x64, .f32⟩
  | .hbm, ⟨47, _⟩ => ⟨S1x160000, .f32⟩
  | .hbm, ⟨48, _⟩ => ⟨S160000, .f32⟩
  | .hbm, ⟨49, _⟩ => ⟨S160000x1x1, .f32⟩
  | .hbm, ⟨50, _⟩ => ⟨S160000x16x64, .f32⟩
  | .hbm, ⟨51, _⟩ => ⟨S160000x16x64, .f32⟩
  | .hbm, ⟨52, _⟩ => ⟨S1x160000, .i32⟩
  | .hbm, ⟨53, _⟩ => ⟨S160000, .i32⟩
  | .hbm, ⟨54, _⟩ => ⟨S_, .f32⟩
  | .hbm, ⟨55, _⟩ => ⟨S10000x16x64, .f32⟩
  | .hbm, ⟨56, _⟩ => ⟨S160000x1, .i32⟩
  | .hbm, ⟨57, _⟩ => ⟨S10000x16x64, .f32⟩
  | .hbm, ⟨58, _⟩ => ⟨S16x10000x64, .f32⟩
  | .hbm, ⟨59, _⟩ => ⟨S1x128x64, .f32⟩
  | .hbm, ⟨60, _⟩ => ⟨S128x64, .f32⟩
  | .hbm, ⟨61, _⟩ => ⟨S64x16x10000, .f32⟩
  | .hbm, ⟨62, _⟩ => ⟨S10000x16x64, .f32⟩
  | .hbm, ⟨63, _⟩ => ⟨S1x160000, .i32⟩
  | .hbm, ⟨64, _⟩ => ⟨S160000, .i32⟩
  | .hbm, ⟨65, _⟩ => ⟨S_, .i32⟩
  | .hbm, ⟨66, _⟩ => ⟨S160000, .i32⟩
  | .hbm, ⟨67, _⟩ => ⟨S160000, .i1⟩
  | .hbm, ⟨68, _⟩ => ⟨S_, .i32⟩
  | .hbm, ⟨69, _⟩ => ⟨S160000, .i32⟩
  | .hbm, ⟨70, _⟩ => ⟨S160000, .i32⟩
  | .hbm, ⟨71, _⟩ => ⟨S160000, .i32⟩
  | .hbm, ⟨72, _⟩ => ⟨S160000x1, .i32⟩
  | .hbm, ⟨73, _⟩ => ⟨S160000x16x64, .f32⟩
  | .hbm, ⟨74, _⟩ => ⟨S1x160000, .f32⟩
  | .hbm, ⟨75, _⟩ => ⟨S160000, .f32⟩
  | .hbm, ⟨76, _⟩ => ⟨S160000x1x1, .f32⟩
  | .hbm, ⟨77, _⟩ => ⟨S160000x16x64, .f32⟩
  | .hbm, ⟨78, _⟩ => ⟨S160000x16x64, .f32⟩
  | .hbm, ⟨79, _⟩ => ⟨S1x160000, .i32⟩
  | .hbm, ⟨80, _⟩ => ⟨S160000, .i32⟩
  | .hbm, ⟨81, _⟩ => ⟨S_, .f32⟩
  | .hbm, ⟨82, _⟩ => ⟨S10000x16x64, .f32⟩
  | .hbm, ⟨83, _⟩ => ⟨S160000x1, .i32⟩
  | .hbm, ⟨84, _⟩ => ⟨S10000x16x64, .f32⟩
  | .hbm, ⟨85, _⟩ => ⟨S16x10000x64, .f32⟩
  | .hbm, ⟨86, _⟩ => ⟨S16x10000x192, .f32⟩
  | _, _ => ⟨S16x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_4 : Ref sig .tc := ⟨.hbm, 65, rfl⟩
abbrev main_v54 : Ref sig .tc := ⟨.hbm, 66, rfl⟩
abbrev main_v55 : Ref sig .tc := ⟨.hbm, 67, rfl⟩
abbrev main_c_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩

abbrev nD : Nat := 1
abbrev τ : Topo := Topo.v7x

variable {F : FTy → Type} [FloatOps F]

class Facts₀ : Prop where
  slices_S3x128x64_S1x128x64_0_0_0 : S3x128x64.Slices ![0, 0, 0] S1x128x64
  shapeCasts_S1x128x64_S128x64 : S1x128x64.ShapeCasts S128x64
  transposes_S64x16x10000_S10000x16x64_2_1_0 : S64x16x10000.Transposes [2, 1, 0] S10000x16x64
  slices_S3x160000_S1x160000_0_0 : S3x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  bcast_S160000_S160000x1x1_0 : S160000.BroadcastsInDim S160000x1x1 (![0] : Fin 1 → Fin S160000x1x1.rank)
  bcast_S160000x1x1_S160000x16x64_0_1_2 : S160000x1x1.BroadcastsInDim S160000x16x64 (![0, 1, 2] : Fin 3 → Fin S160000x16x64.rank)
  bcast_S_S10000x16x64 : S_.BroadcastsInDim S10000x16x64 (![] : Fin 0 → Fin S10000x16x64.rank)
  transposes_S10000x16x64_S16x10000x64_1_0_2 : S10000x16x64.Transposes [1, 0, 2] S16x10000x64
  slices_S3x128x64_S1x128x64_1_0_0 : S3x128x64.Slices ![1, 0, 0] S1x128x64
  slices_S3x160000_S1x160000_1_0 : S3x160000.Slices ![1, 0] S1x160000
  slices_S3x128x64_S1x128x64_2_0_0 : S3x128x64.Slices ![2, 0, 0] S1x128x64
  slices_S3x160000_S1x160000_2_0 : S3x160000.Slices ![2, 0] S1x160000
  concatenates_S16x10000x64_S16x10000x64_S16x10000x64_S16x10000x192_d2 : Shape.Concatenates [S16x10000x64, S16x10000x64, S16x10000x64] S16x10000x192 2
  dot_S128x64_S16x10000x128_S64x16x10000_0_2_1_01_n_n_wf : DotDims.WF S128x64 S16x10000x128 S64x16x10000 [0] [2] [1] [0, 1] [] []
  gather_S10000x16x64_S160000x1_S160000x16x64_12_0_n_n_0_1_11664_wf : GatherDims.WF S10000x16x64 S160000x1 S160000x16x64 [1, 2] [0] [] [0] [] 1 ![1, 16, 64]
  scatter_S10000x16x64_S160000x1_S160000x16x64_12_0_0_1_wf : ScatterDims.WF S10000x16x64 S160000x1 S160000x16x64 [1, 2] [0] [0] 1

variable [Facts₀]

def dot_S128x64_S16x10000x128_S64x16x10000_0_2_1_01_n_n : DotDims S128x64 S16x10000x128 S64x16x10000 where
  lhsContracting := [0]
  rhsContracting := [2]
  lhsNonContracting := [1]
  rhsNonContracting := [0, 1]
  lhsBatch := []
  rhsBatch := []
  wf := dot_S128x64_S16x10000x128_S64x16x10000_0_2_1_01_n_n_wf
def gather_S10000x16x64_S160000x1_S160000x16x64_12_0_n_n_0_1_11664 : GatherDims S10000x16x64 S160000x1 S160000x16x64 where
  offsetDims := [1, 2]
  collapsedSliceDims := [0]
  operandBatchingDims := []
  startIndicesBatchingDims := []
  startIndexMap := [0]
  indexVectorDim := 1
  sliceSizes := ![1, 16, 64]
  wf := gather_S10000x16x64_S160000x1_S160000x16x64_12_0_n_n_0_1_11664_wf
def scatter_S10000x16x64_S160000x1_S160000x16x64_12_0_0_1 : ScatterDims S10000x16x64 S160000x1 S160000x16x64 where
  updateWindowDims := [1, 2]
  insertedWindowDims := [0]
  scatterDimsToOperandDims := [0]
  indexVectorDim := 1
  wf := scatter_S10000x16x64_S160000x1_S160000x16x64_12_0_0_1_wf

class Facts : Prop extends Facts₀ where

variable [Facts]
-- ==== Proof.FeatRunBits.lean ====
/-
  The run of the program's @main, at any float instance: the feature-transform region (one launch over a 25 x 3 grid:
  point (n, k) multiplies the n-th block of 400 nodes of x, all 16 batches, by the k-th weight matrix) followed by the
  straight line of 77 host operations that aggregates each support's rows.

  What is proved here: every weakly fair execution terminates without a fault; the five argument arrays end as they
  were launched; the launch's result array ends at what the grid's points wrote back (the library's fold of the blocks,
  block (n, k) being the body's product of x's block n with W's block k); and the program's result ends at the 77
  operations applied to those arrays. The body loads its two input blocks and (unused) its output buffer, and stores
  the product over the whole output buffer, so the buffer after the body is a function of the two input blocks alone.
  None of the 77 later operations writes an argument or the launch's result: each writes its own fresh buffer.
-/
import proofs.«150361_j3401614098844_1_alg».proof.Proof.Gen.Kernel.Launch
import proofs.«150361_j3401614098844_1_alg».proof.Proof.Gen.Kernel.Skeleton
import proofs.«150361_j3401614098844_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FeatRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the aggregation line -/

/-- Core `c`'s buffer contents when the region is entered: no host operation comes before it, so they are the launch
    contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The region finds every buffer as launched. -/
theorem V_launch (c : Dev nD) (b : Ref sig .tc) : V m c b = m ((c : Thread nD τ).loc b) := rfl

set_option maxHeartbeats 4000000 in  -- the list has 77 operations
/-- The aggregation line allocates nothing. -/
theorem tail_fresh : (hostOps1 : List (HloOp τ sig (Elt F))).Forall fun op => op.fresh = ∅ := by
  simp only [List.Forall]; repeat' constructor

set_option maxHeartbeats 4000000 in  -- the statement carries the 77-operation list
/-- @main reduces to the region continued by the aggregation line, the buffers at their launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-- The line touches unscoped TensorCore buffers only: the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem tail_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp tail_fresh) op hop

/-- Each of the 77 operations writes only its own result buffer; so a buffer that is no such result is written by
    none of them. One lemma per buffer the claims speak of. -/
local macro "never_written" : tactic => `(tactic| (
  refine List.forall_iff_forall_mem.mp ?_
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem tail_keeps_arg0 : ∀ op ∈ (hostOps1 : List (HloOp τ sig (Elt F))), Proc.devRef .tc main_arg0 ∉ op.writes := by never_written
theorem tail_keeps_arg1 : ∀ op ∈ (hostOps1 : List (HloOp τ sig (Elt F))), Proc.devRef .tc main_arg1 ∉ op.writes := by never_written
theorem tail_keeps_arg2 : ∀ op ∈ (hostOps1 : List (HloOp τ sig (Elt F))), Proc.devRef .tc main_arg2 ∉ op.writes := by never_written
theorem tail_keeps_arg3 : ∀ op ∈ (hostOps1 : List (HloOp τ sig (Elt F))), Proc.devRef .tc main_arg3 ∉ op.writes := by never_written
theorem tail_keeps_arg4 : ∀ op ∈ (hostOps1 : List (HloOp τ sig (Elt F))), Proc.devRef .tc main_arg4 ∉ op.writes := by never_written
theorem tail_keeps_v0 : ∀ op ∈ (hostOps1 : List (HloOp τ sig (Elt F))), Proc.devRef .tc main_v0 ∉ op.writes := by never_written

/-- The launch's three arrays are x, W and the launch's result. -/
theorem arr0 : Pipeline.arrRef spec0 0 = main_arg0 := rfl
theorem arr1 : Pipeline.arrRef spec0 1 = main_arg1 := rfl
theorem arr2 : Pipeline.arrRef spec0 2 = main_v0 := rfl

/-- So the line writes no array of the launch. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  intro w
  match w with
  | ⟨0, _⟩ => exact tail_keeps_arg0 op hop
  | ⟨1, _⟩ => exact tail_keeps_arg1 op hop
  | ⟨2, _⟩ => exact tail_keeps_v0 op hop

/-! ## The blocks and the body -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three whole-buffer rectangles the body loads and stores through. -/
abbrev rX : Rect S16x400x128 := Rect.unit (s := S16x400x128) ![0, 0, 0] S16x400x128.size inb_S16x400x128_S16x400x128_0_0_0
abbrev rW : Rect S1x128x64 := Rect.unit (s := S1x128x64) ![0, 0, 0] S1x128x64.size inb_S1x128x64_S1x128x64_0_0_0
abbrev rO : Rect S1x16x400x64 := Rect.unit (s := S1x16x400x64) ![0, 0, 0, 0] S1x16x400x64.size inb_S1x16x400x64_S1x16x400x64_0_0_0_0

/-- What the body leaves in the output buffer, from the two input blocks: its one store, of the product, over the whole
    buffer. -/
def outBlk (x0 : Vec F S16x400x128 .f32) (w0 : Vec F S1x128x64 .f32) : Vec F S1x16x400x64 .f32 :=
  View.canon [⟨rO, k0_pay1 (View.ld x0 rX) (View.ld w0 rW)⟩]

/-- The one store covers the buffer. -/
theorem outCover (p0 : Vec F S1x16x400x64 .f32) (y : S1x16x400x64.Idx) :
    ∃ pc ∈ ([⟨rO, p0⟩] : List (View.Piece (Elt F) S1x16x400x64 .f32)), y ∈ pc.1.set :=
  View.cover_of_tiled [⟨rO, p0⟩] S1x16x400x64.size (by rfl) y

set_option maxHeartbeats 1000000 in
/-- The body on whole staging buffers: the two inputs at `x0`, `w0`, the output at anything; it ends with the inputs as
    they were and the output at `outBlk x0 w0`. -/
theorem sound_kernel (c : Dev nD) (E : Set ℕ) (i : grid0.Coords)
    (arg2 : Memref sig .tc .vmem S16x400x128 .f32) (harg2 : arg2.IsWhole)
    (arg3 : Memref sig .tc .vmem S1x128x64 .f32) (harg3 : arg3.IsWhole)
    (arg4 : Memref sig .tc .vmem S1x16x400x64 .f32) (harg4 : arg4.IsWhole)
    (x0 : Vec F S16x400x128 .f32) (w0 : Vec F S1x128x64 .f32) (K : PUnit → sProp 𝕄) :
    iprop(owns (c : Thread nD τ) arg2 fullShare x0 ∗ owns (c : Thread nD τ) arg3 fullShare w0
        ∗ (∃ d, owns (c : Thread nD τ) arg4 fullShare d)
        ∗ (iprop(owns (c : Thread nD τ) arg2 fullShare x0 ∗ owns (c : Thread nD τ) arg3 fullShare w0
            ∗ owns (c : Thread nD τ) arg4 fullShare (outBlk x0 w0)) -∗ K ⟨⟩))
      ⊢ wp frame (wpE (defs₀ (F := F)) Variants.none c none) E (cc0__feat_transform_kernel i arg2 harg2 arg3 harg3 arg4 harg4) K := by
  simp only [cc0__feat_transform_kernel_eq_skeleton]; unfold cc0__feat_transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The launch's proof data -/

/-- After the body at point `t`: each input buffer at its block, the output buffer at `outBlk` of the two blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = outBlk (iblk m c 0 t) (iblk m c 1 t) := by dsimp only [dats]

/-- x's staging buffer holds x's block at every point, fetched there or not: between two fetches the block index does
    not move (it reads the node axis only) and the body leaves the buffer as it found it. -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x]; unfold Dat.blockOf iblk; rw [A_eq]; try rfl) t d).trans
    (by unfold Dat.fetched Dat.blockOf iblk; rw [A_eq]; try rfl)

/-- W's staging buffer holds W's block at every point (it is fetched at every point). -/
theorem before_w (c : Dev nD) (t : Fin cfg0.N) (d) : (dats m 0 c).before 1 t d = iblk m c 1 t :=
  ((dats m 0 c).before_in_eq_fetched 1 rfl (fun _ => rfl) (fun _ _ _ => rfl)
      (fun t => by rw [after_w]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its two input buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in  -- the statement carries the 77-operation list
set_option backward.isDefEq.respectTransparency.types false in
/-- Every weakly fair execution of @main terminates; at its end each array of the launch holds what the library
    computes from the proof data, and every other unscoped buffer what the aggregation line leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The buffer contents the aggregation line starts from: the launch's arrays at the library's fold of the blocks,
    every other buffer as launched. -/
abbrev exitVal (c : Dev nD) : Valuation τ sig (Elt F) :=
  Pipeline.withArrays spec0 c (V0 m c) fun w => (dats m 0 c).arrAt w cfg0.N

/-- A buffer the line never writes and that is no array of the launch ends as launched. -/
theorem kept_of (c : Dev nD) (b : Ref sig .tc)
    (hb : ∀ op ∈ (hostOps1 : List (HloOp τ sig (Elt F))), Proc.devRef .tc b ∉ op.writes)
    (hne : ∀ w, Pipeline.arrRef spec0 w ≠ b) :
    Pipeline.afterTail₀ cfgs (dats m) 0 (V0 m) [hostOps1] c b = m ((c : Thread nD τ).loc b) := by
  unfold Pipeline.afterTail₀
  rw [show ([hostOps1] : List (List (HloOp τ sig (Elt F)))).flatten = hostOps1 from by
      simp only [List.flatten_cons, List.flatten_nil, List.append_nil],
    StableHlo.after_of_forall_not_mem (b := Proc.devRef .tc b) _ _ hb,
    Pipeline.withArrays_of_ne _ c (V0 m c) _ b hne]
  rfl

/-- THE RUN, read at the buffers the claims speak of: the program's result ends at the aggregation line applied to
    the exit contents, and the five arguments end as launched. -/
theorem run : θ_run defs (onTc (τ := τ) (main (F := F))) ⟨m, fun _ => 0, ρ⟩ (fun r => ∀ c : Dev nD,
      r.2.mem ((c.tc : Thread nD τ).loc main_v68) = StableHlo.after hostOps1 (exitVal m c) (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v68 (Pipeline.mem_restRefs_of main_v68 (by decide) (by decide))).trans (by
        unfold Pipeline.afterTail₀
        rw [show ([hostOps1] : List (List (HloOp τ sig (Elt F)))).flatten = hostOps1 from by
          simp only [List.flatten_cons, List.flatten_nil, List.append_nil]]),
     ((h c).1 0).trans (((dats m 0 c).arrAt_in 0 rfl _).trans (A_eq m c 0)),
     ((h c).1 1).trans (((dats m 0 c).arrAt_in 1 rfl _).trans (A_eq m c 1)),
     ((h c).2 main_arg2 (Pipeline.mem_restRefs_of main_arg2 (by decide) (by decide))).trans
       (kept_of m c main_arg2 tail_keeps_arg2 (by decide)),
     ((h c).2 main_arg3 (Pipeline.mem_restRefs_of main_arg3 (by decide) (by decide))).trans
       (kept_of m c main_arg3 tail_keeps_arg3 (by decide)),
     ((h c).2 main_arg4 (Pipeline.mem_restRefs_of main_arg4 (by decide) (by decide))).trans
       (kept_of m c main_arg4 tail_keeps_arg4 (by decide))⟩) (run_main m ρ)

end Cert.Kernel.FeatRun

end
-- ==== Proof.FeatRunIdeal.lean ====
/-
  The run of the program's @main, at any float instance: the feature-transform region (one launch over a 25 x 3 grid:
  point (n, k) multiplies the n-th block of 400 nodes of x, all 16 batches, by the k-th weight matrix) followed by the
  straight line of 77 host operations that aggregates each support's rows.

  What is proved here: every weakly fair execution terminates without a fault; the five argument arrays end as they
  were launched; the launch's result array ends at what the grid's points wrote back (the library's fold of the blocks,
  block (n, k) being the body's product of x's block n with W's block k); and the program's result ends at the 77
  operations applied to those arrays. The body loads its two input blocks and (unused) its output buffer, and stores
  the product over the whole output buffer, so the buffer after the body is a function of the two input blocks alone.
  None of the 77 later operations writes an argument or the launch's result: each writes its own fresh buffer.
-/
import proofs.«150361_j3401614098844_1_alg».proof.Proof.Gen.KernelIdeal.Launch
import proofs.«150361_j3401614098844_1_alg».proof.Proof.Gen.KernelIdeal.Skeleton
import proofs.«150361_j3401614098844_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FeatRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the aggregation line -/

/-- Core `c`'s buffer contents when the region is entered: no host operation comes before it, so they are the launch
    contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The region finds every buffer as launched. -/
theorem V_launch (c : Dev nD) (b : Ref sig .tc) : V m c b = m ((c : Thread nD τ).loc b) := rfl

set_option maxHeartbeats 4000000 in  -- the list has 77 operations
/-- The aggregation line allocates nothing. -/
theorem tail_fresh : (hostOps1 : List (HloOp τ sig (Elt F))).Forall fun op => op.fresh = ∅ := by
  simp only [List.Forall]; repeat' constructor

set_option maxHeartbeats 4000000 in  -- the statement carries the 77-operation list
/-- @main reduces to the region continued by the aggregation line, the buffers at their launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-- The line touches unscoped TensorCore buffers only: the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem tail_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp tail_fresh) op hop

/-- Each of the 77 operations writes only its own result buffer; so a buffer that is no such result is written by
    none of them. One lemma per buffer the claims speak of. -/
local macro "never_written" : tactic => `(tactic| (
  refine List.forall_iff_forall_mem.mp ?_
  simp only [hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

theorem tail_keeps_arg0 : ∀ op ∈ (hostOps1 : List (HloOp τ sig (Elt F))), Proc.devRef .tc main_arg0 ∉ op.writes := by never_written
theorem tail_keeps_arg1 : ∀ op ∈ (hostOps1 : List (HloOp τ sig (Elt F))), Proc.devRef .tc main_arg1 ∉ op.writes := by never_written
theorem tail_keeps_arg2 : ∀ op ∈ (hostOps1 : List (HloOp τ sig (Elt F))), Proc.devRef .tc main_arg2 ∉ op.writes := by never_written
theorem tail_keeps_arg3 : ∀ op ∈ (hostOps1 : List (HloOp τ sig (Elt F))), Proc.devRef .tc main_arg3 ∉ op.writes := by never_written
theorem tail_keeps_arg4 : ∀ op ∈ (hostOps1 : List (HloOp τ sig (Elt F))), Proc.devRef .tc main_arg4 ∉ op.writes := by never_written
theorem tail_keeps_v0 : ∀ op ∈ (hostOps1 : List (HloOp τ sig (Elt F))), Proc.devRef .tc main_v0 ∉ op.writes := by never_written

/-- The launch's three arrays are x, W and the launch's result. -/
theorem arr0 : Pipeline.arrRef spec0 0 = main_arg0 := rfl
theorem arr1 : Pipeline.arrRef spec0 1 = main_arg1 := rfl
theorem arr2 : Pipeline.arrRef spec0 2 = main_v0 := rfl

/-- So the line writes no array of the launch. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  intro w
  match w with
  | ⟨0, _⟩ => exact tail_keeps_arg0 op hop
  | ⟨1, _⟩ => exact tail_keeps_arg1 op hop
  | ⟨2, _⟩ => exact tail_keeps_v0 op hop

/-! ## The blocks and the body -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three whole-buffer rectangles the body loads and stores through. -/
abbrev rX : Rect S16x400x128 := Rect.unit (s := S16x400x128) ![0, 0, 0] S16x400x128.size inb_S16x400x128_S16x400x128_0_0_0
abbrev rW : Rect S1x128x64 := Rect.unit (s := S1x128x64) ![0, 0, 0] S1x128x64.size inb_S1x128x64_S1x128x64_0_0_0
abbrev rO : Rect S1x16x400x64 := Rect.unit (s := S1x16x400x64) ![0, 0, 0, 0] S1x16x400x64.size inb_S1x16x400x64_S1x16x400x64_0_0_0_0

/-- What the body leaves in the output buffer, from the two input blocks: its one store, of the product, over the whole
    buffer. -/
def outBlk (x0 : Vec F S16x400x128 .f32) (w0 : Vec F S1x128x64 .f32) : Vec F S1x16x400x64 .f32 :=
  View.canon [⟨rO, k0_pay1 (View.ld x0 rX) (View.ld w0 rW)⟩]

/-- The one store covers the buffer. -/
theorem outCover (p0 : Vec F S1x16x400x64 .f32) (y : S1x16x400x64.Idx) :
    ∃ pc ∈ ([⟨rO, p0⟩] : List (View.Piece (Elt F) S1x16x400x64 .f32)), y ∈ pc.1.set :=
  View.cover_of_tiled [⟨rO, p0⟩] S1x16x400x64.size (by rfl) y

set_option maxHeartbeats 1000000 in
/-- The body on whole staging buffers: the two inputs at `x0`, `w0`, the output at anything; it ends with the inputs as
    they were and the output at `outBlk x0 w0`. -/
theorem sound_kernel (c : Dev nD) (E : Set ℕ) (i : grid0.Coords)
    (arg2 : Memref sig .tc .vmem S16x400x128 .f32) (harg2 : arg2.IsWhole)
    (arg3 : Memref sig .tc .vmem S1x128x64 .f32) (harg3 : arg3.IsWhole)
    (arg4 : Memref sig .tc .vmem S1x16x400x64 .f32) (harg4 : arg4.IsWhole)
    (x0 : Vec F S16x400x128 .f32) (w0 : Vec F S1x128x64 .f32) (K : PUnit → sProp 𝕄) :
    iprop(owns (c : Thread nD τ) arg2 fullShare x0 ∗ owns (c : Thread nD τ) arg3 fullShare w0
        ∗ (∃ d, owns (c : Thread nD τ) arg4 fullShare d)
        ∗ (iprop(owns (c : Thread nD τ) arg2 fullShare x0 ∗ owns (c : Thread nD τ) arg3 fullShare w0
            ∗ owns (c : Thread nD τ) arg4 fullShare (outBlk x0 w0)) -∗ K ⟨⟩))
      ⊢ wp frame (wpE (defs₀ (F := F)) Variants.none c none) E (cc0__feat_transform_kernel i arg2 harg2 arg3 harg3 arg4 harg4) K := by
  simp only [cc0__feat_transform_kernel_eq_skeleton]; unfold cc0__feat_transform_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The launch's proof data -/

/-- After the body at point `t`: each input buffer at its block, the output buffer at `outBlk` of the two blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = outBlk (iblk m c 0 t) (iblk m c 1 t) := by dsimp only [dats]

/-- x's staging buffer holds x's block at every point, fetched there or not: between two fetches the block index does
    not move (it reads the node axis only) and the body leaves the buffer as it found it. -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x]; unfold Dat.blockOf iblk; rw [A_eq]; try rfl) t d).trans
    (by unfold Dat.fetched Dat.blockOf iblk; rw [A_eq]; try rfl)

/-- W's staging buffer holds W's block at every point (it is fetched at every point). -/
theorem before_w (c : Dev nD) (t : Fin cfg0.N) (d) : (dats m 0 c).before 1 t d = iblk m c 1 t :=
  ((dats m 0 c).before_in_eq_fetched 1 rfl (fun _ => rfl) (fun _ _ _ => rfl)
      (fun t => by rw [after_w]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its two input buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option maxHeartbeats 4000000 in  -- the statement carries the 77-operation list
set_option backward.isDefEq.respectTransparency.types false in
/-- Every weakly fair execution of @main terminates; at its end each array of the launch holds what the library
    computes from the proof data, and every other unscoped buffer what the aggregation line leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh') (hkeep := tail_keeps)
    (hmain := hmain m Variants.none) (hA := A_eq m) (hΦ := fun _ _ => rfl)

/-- The buffer contents the aggregation line starts from: the launch's arrays at the library's fold of the blocks,
    every other buffer as launched. -/
abbrev exitVal (c : Dev nD) : Valuation τ sig (Elt F) :=
  Pipeline.withArrays spec0 c (V0 m c) fun w => (dats m 0 c).arrAt w cfg0.N

/-- A buffer the line never writes and that is no array of the launch ends as launched. -/
theorem kept_of (c : Dev nD) (b : Ref sig .tc)
    (hb : ∀ op ∈ (hostOps1 : List (HloOp τ sig (Elt F))), Proc.devRef .tc b ∉ op.writes)
    (hne : ∀ w, Pipeline.arrRef spec0 w ≠ b) :
    Pipeline.afterTail₀ cfgs (dats m) 0 (V0 m) [hostOps1] c b = m ((c : Thread nD τ).loc b) := by
  unfold Pipeline.afterTail₀
  rw [show ([hostOps1] : List (List (HloOp τ sig (Elt F)))).flatten = hostOps1 from by
      simp only [List.flatten_cons, List.flatten_nil, List.append_nil],
    StableHlo.after_of_forall_not_mem (b := Proc.devRef .tc b) _ _ hb,
    Pipeline.withArrays_of_ne _ c (V0 m c) _ b hne]
  rfl

/-- THE RUN, read at the buffers the claims speak of: the program's result ends at the aggregation line applied to
    the exit contents, and the five arguments end as launched. -/
theorem run : θ_run defs (onTc (τ := τ) (main (F := F))) ⟨m, fun _ => 0, ρ⟩ (fun r => ∀ c : Dev nD,
      r.2.mem ((c.tc : Thread nD τ).loc main_v68) = StableHlo.after hostOps1 (exitVal m c) (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v68 (Pipeline.mem_restRefs_of main_v68 (by decide) (by decide))).trans (by
        unfold Pipeline.afterTail₀
        rw [show ([hostOps1] : List (List (HloOp τ sig (Elt F)))).flatten = hostOps1 from by
          simp only [List.flatten_cons, List.flatten_nil, List.append_nil]]),
     ((h c).1 0).trans (((dats m 0 c).arrAt_in 0 rfl _).trans (A_eq m c 0)),
     ((h c).1 1).trans (((dats m 0 c).arrAt_in 1 rfl _).trans (A_eq m c 1)),
     ((h c).2 main_arg2 (Pipeline.mem_restRefs_of main_arg2 (by decide) (by decide))).trans
       (kept_of m c main_arg2 tail_keeps_arg2 (by decide)),
     ((h c).2 main_arg3 (Pipeline.mem_restRefs_of main_arg3 (by decide) (by decide))).trans
       (kept_of m c main_arg3 tail_keeps_arg3 (by decide)),
     ((h c).2 main_arg4 (Pipeline.mem_restRefs_of main_arg4 (by decide) (by decide))).trans
       (kept_of m c main_arg4 tail_keeps_arg4 (by decide))⟩) (run_main m ρ)

end Cert.KernelIdeal.FeatRun

end
-- ==== Proof.FeatSpec.lean ====
/-
  What the feature-transform launch computes, as one function of the argument arrays: for support k, batch b, node n
  and output feature o, the sum over the 128 input features d of x(b, n, d) · W(k, d, o). (On the extended reals a
  change of float format is the identity, so the rounding of the operands to bf16 before the product does not show.)
-/
import proofs.«150361_j3401614098844_1_alg».proof.KernelIdeal
import Idealize.ShloMosaic.Lib.ValueIdx

noncomputable section

namespace Cert.KernelIdeal.FeatValue

open Idealize.ShloMosaic Idealize.ShloMosaic.ValueIdx Cert.KernelIdeal
open scoped BigOperators

/-- The transformed features of all three supports. -/
def featAll (x : S16x10000x128.Idx → EReal) (W : S3x128x64.Idx → EReal) : S3x16x10000x64.Idx → EReal :=
  fun i => ∑ d : Fin 128, x (ix3 (i 1) (i 2) d) * W (ix3 (i 0) d (i 3))

theorem featAll_apply (x : S16x10000x128.Idx → EReal) (W : S3x128x64.Idx → EReal)
    (k : Fin 3) (b : Fin 16) (n : Fin 10000) (o : Fin 64) :
    featAll x W (ix4 k b n o) = ∑ d : Fin 128, x (ix3 b n d) * W (ix3 k d o) := rfl

end Cert.KernelIdeal.FeatValue

end
-- ==== Proof.LibMatRows.lean ====
/-
  General lemmas for matrices read at coordinates on the extended reals, for any extents.

  * A product with the plain dimension numbers (contract the left operand's columns with the right operand's rows, no
    batch axis) read at (p, q) is the sum over k of l (p, k) · r (k, q): for a kernel's matrix product into a zero
    accumulator and for the host's dot_general alike. A printed dimension record with these numbers IS the library's
    plain record (the fields agree and the well-formedness proof is a proposition), so the lemmas take the record and
    that equation.
  * A sum along the rows of a rank-2 array, read at row p, is the sum over the columns k of the array at (p, k): for a
    vector reduction and for the host's reduce (which adds its initial value) alike.
-/
import Idealize.ShloMosaic.PureOps.Ideal
import Idealize.ShloMosaic.PureOps.Ideal.Laws
import Idealize.ShloMosaic.Lib.ValueIdx

noncomputable section

namespace Cert.LibMatRows

open Idealize.ShloMosaic Idealize.ShloMosaic.ValueIdx
open scoped BigOperators

/-! ## The plain product -/

section Plain
variable (M K N : Nat)

/-- The plain record contracts one axis of extent K. -/
abbrev kEquiv : (DotDims.plain M K N).contr.Idx ≃ Fin K := contrEquiv1 (DotDims.plain M K N) K rfl rfl

/-- The left operand is read at (p, k). -/
theorem plain_lhsIdx (p : Fin M) (q : Fin N) (k : Fin K) :
    (DotDims.plain M K N).lhsIdx (ix2 p q) ((kEquiv M K N).symm k) = ix2 p k := by
  funext a
  apply Fin.ext
  match a with
  | ⟨0, _⟩ => rfl
  | ⟨1, _⟩ =>
    exact ((DotDims.plain M K N).lhsIdx_val_of_single (cl := 1) rfl (ix2 p q) ((kEquiv M K N).symm k)).trans
      (contrEquiv1_symm_val (DotDims.plain M K N) K rfl rfl k)

/-- The right operand is read at (k, q). -/
theorem plain_rhsIdx (p : Fin M) (q : Fin N) (k : Fin K) :
    (DotDims.plain M K N).rhsIdx (ix2 p q) ((kEquiv M K N).symm k) = ix2 k q := by
  funext a
  apply Fin.ext
  match a with
  | ⟨0, _⟩ =>
    exact ((DotDims.plain M K N).rhsIdx_val_of_single (cr := 0) rfl (ix2 p q) ((kEquiv M K N).symm k)).trans
      (contrEquiv1_symm_val (DotDims.plain M K N) K rfl rfl k)
  | ⟨1, _⟩ => rfl

/-- The contraction's sum, re-indexed by the contracted coordinate. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (kEquiv M K N).symm]
  exact Finset.sum_congr rfl fun k _ => by rw [plain_lhsIdx, plain_rhsIdx]

end Plain

/-- A kernel's matrix product into the zero accumulator, with plain dimension numbers, at (p, q). -/
theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum M K N l r p q)

/-- The host's dot_general with plain dimension numbers, at (p, q). -/
theorem dotGeneral_plain_apply {M K N : Nat} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  exact (Ideal.dotGeneral_apply _ prec .single l r (ix2 p q)).trans (plain_sum M K N l r p q)

/-! ## Row sums -/

/-- The index a row-sum reads: row p, column k. -/
theorem lift_rows {A B : Nat} (h : (⟨2, ![A, B]⟩ : Shape).Reduces [1] ⟨1, ![A]⟩) (p : Fin A) (k : Fin B) :
    h.lift (ix1 p) k = ix2 p k := by
  funext a
  apply Fin.ext
  match a with
  | ⟨0, _⟩ => rfl
  | ⟨1, _⟩ => rfl

/-- A vector reduction by addition along the rows, at row p. -/
theorem multiReduction_rows_apply {A B : Nat} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) :=
  (Ideal.multiReduction_add_single src acc h hφ hacc (ix1 p)).trans
    (Finset.sum_congr rfl fun k _ => congrArg src (lift_rows h p k))

/-- The host's reduce by addition along the rows, at row p: the initial value plus the row's sum. -/
theorem hostReduceAdd_rows_apply {A B : Nat} {φ : FTy} {u : Shape} (x : FVec Ideal ⟨2, ![A, B]⟩ φ) (init : u.Idx → Ideal φ)
    (h' : (⟨2, ![A, B]⟩ : Shape).ReducesTo [1] ⟨1, ![A]⟩) (hu : 0 < u.numel)
    (h : (⟨2, ![A, B]⟩ : Shape).Reduces [1] ⟨1, ![A]⟩) (p : Fin A) :
    Host.reduceAdd x init h' hu (ix1 p) = init (Shape.Idx.first hu) + ∑ k : Fin B, x (ix2 p k) :=
  (Ideal.hostReduceAdd_single h' h x (init (Shape.Idx.first hu)) (ix1 p)).trans
    (congrArg (init (Shape.Idx.first hu) + ·) (Finset.sum_congr rfl fun k _ => congrArg x (lift_rows h p k)))

end Cert.LibMatRows

end
-- ==== Proof.FeatPay.lean ====
/-
  The body's stored block, read at an index, on the extended reals: entry (0, b, r, o) of the block is the sum over
  the 128 input features d of x0(b, r, d) · w0(0, d, o), where x0 is the block of x (16 batches, 400 nodes, 128
  features) and w0 the block of W (one support's 128 x 64 matrix). The body flattens x0 to 6400 rows (row b·400 + r),
  multiplies by the matrix into a zero accumulator, and reshapes the 6400 x 64 product back; the casts to bf16 are the
  identity here.
-/
import proofs.«150361_j3401614098844_1_alg».proof.Proof.Gen.KernelIdeal.Skeleton
import proofs.«150361_j3401614098844_1_alg».proof.Proof.LibMatRows
import Idealize.ShloMosaic.Lib.ValueLayout
import Idealize.ShloMosaic.Lib.Pipeline.Value

noncomputable section

namespace Cert.KernelIdeal.FeatValue

open Idealize.ShloMosaic Idealize.ShloMosaic.ValueIdx Idealize.ShloMosaic.Pipeline Cert.KernelIdeal Cert.KernelIdeal.Gen
open scoped BigOperators

/-- The stored block at (u, b, r, o). -/
theorem pay_apply (x0 : Vec Ideal S16x400x128 .f32) (w0 : Vec Ideal S1x128x64 .f32)
    (u : Fin 1) (b : Fin 16) (r : Fin 400) (o : Fin 64) :
    k0_pay1 x0 w0 (ix4 u b r o) = ∑ d : Fin 128, x0 (ix3 b r d) * w0 (ix3 (0 : Fin 1) d o) := by
  have hp : b.val * 400 + r.val < 6400 := by have := b.isLt; have := r.isLt; omega
  unfold k0_pay1
  refine (shapeCast_abc_1abc_apply _ _ u b r o).trans ?_
  refine (shapeCast_apply _ _ (ix3 b r o) (ix2 (⟨b.val * 400 + r.val, hp⟩ : Fin 6400) o) (by
      rw [Shape.rowMajor_val_two, Shape.rowMajor_val_three]; rfl)).trans ?_
  refine (Cert.LibMatRows.matmul_plain_apply _ rfl none _ _ (⟨b.val * 400 + r.val, hp⟩ : Fin 6400) o).trans ?_
  refine Finset.sum_congr rfl fun d _ => ?_
  congr 1
  · exact shapeCast_apply _ _ (ix2 (⟨b.val * 400 + r.val, hp⟩ : Fin 6400) d) (ix3 b r d) (by
      rw [Shape.rowMajor_val_three, Shape.rowMajor_val_two]; rfl)
  · exact shapeCast_1ab_ab_apply _ _ d o

end Cert.KernelIdeal.FeatValue

end
-- ==== Proof.FeatArray.lean ====
/-
  The launch's result array after the run, as one function of x and W: at (k, b, n, o) it holds the sum over the
  input features d of x(b, n, d) · W(k, d, o).

  Grid point t = (n', k') writes back block (k', 0, n', 0) of the result (1 support, 16 batches, 400 nodes, 64 features)
  and reads block (0, n', 0) of x and block (k', 0, 0) of W. What the body stores at (0, b, r, o) is the sum over d of
  x-block(b, r, d) · W-block(0, d, o), and entry (b, r, d) of x's block n' is x(b, 400 n' + r, d), entry (0, d, o) of
  W's block k' is W(k', d, o): so what point t writes back is its block of the one function above. The 75 blocks tile
  the array: index (k, b, n, o) lies in the block of the point (n / 400, k).
-/
import proofs.«150361_j3401614098844_1_alg».proof.Proof.FeatRunIdeal
import proofs.«150361_j3401614098844_1_alg».proof.Proof.FeatSpec
import proofs.«150361_j3401614098844_1_alg».proof.Proof.FeatPay
import Idealize.ShloMosaic.Lib.Pipeline.Value

set_option maxRecDepth 16384

noncomputable section

namespace Cert.KernelIdeal.FeatValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.FeatRun
open scoped BigOperators

variable (m : (ℓ : Loc nD τ sig) → Buf (Elt Ideal) ℓ)

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The three windows' block indices at a grid point, decided over the 75 points: x's block moves with the result's
    node block, W's with the result's support block, every other block index is 0. -/
theorem blockIdx : ∀ t : Fin cfg0.N,
    win0_0.index t (0 : Fin 3) = 0 ∧ win0_0.index t (1 : Fin 3) = win0_2.index t (2 : Fin 4) ∧ win0_0.index t (2 : Fin 3) = 0
    ∧ win0_1.index t (0 : Fin 3) = win0_2.index t (0 : Fin 4) ∧ win0_1.index t (1 : Fin 3) = 0 ∧ win0_1.index t (2 : Fin 3) = 0
    ∧ win0_2.index t (1 : Fin 4) = 0 ∧ win0_2.index t (3 : Fin 4) = 0 :=
  (by decide +kernel : ∀ t : Fin grid0.N, _)

/-- Every (support, node block) pair is some point's. -/
theorem blockOnto : ∀ (q0 : Fin 3) (q2 : Fin 25), ∃ t : Fin cfg0.N, win0_2.index t = ![q0.val, 0, q2.val, 0] :=
  (by decide +kernel : ∀ (q0 : Fin 3) (q2 : Fin 25), ∃ t : Fin grid0.N, win0_2.index t = ![q0.val, 0, q2.val, 0])

/-- WHAT POINT t WRITES BACK is block t of `featAll` of x and W as launched. -/
theorem flushed_eq (c : Dev nD) (t : Fin cfg0.N) :
    (dats m 0 c).flushed 2 t
      = ((cfg0.win 2).blk t).view.read (Elt Ideal) (featAll (V m c main_arg0) (V m c main_arg1)) := by
  show (cfg0.win 2).cut (grid0.coords t) ((dats m 0 c).after 2 t) = _
  rw [after_o]
  unfold outBlk
  rw [View.canon_unit_zero zero4]
  simp only [View.ld_unit_zero (S := S16x400x128) zero3, View.ld_unit_zero (S := S1x128x64) zero3]
  obtain ⟨e0, e1, e2, e3, e4, e5, e6, e7⟩ := blockIdx t
  funext j
  obtain ⟨u, b, r, o, rfl⟩ : ∃ (u : Fin 1) (b : Fin 16) (r : Fin 400) (o : Fin 64), j = ix4 u b r o :=
    ⟨j 0, j 1, j 2, j 3, eq_ix4 j⟩
  have hu : u.val = 0 := by omega
  refine (pay_apply (iblk m c 0 t) (iblk m c 1 t) u b r o).trans ?_
  rw [View.read_apply]
  unfold featAll
  refine Finset.sum_congr rfl fun d _ => ?_
  congr 1
  · show V m c main_arg0 (((cfg0.win 0).blk t).view.emb (ix3 b r d)) = V m c main_arg0 _
    refine congrArg (V m c main_arg0) (funext fun a => Fin.ext ?_)
    match a with
    | ⟨0, _⟩ =>
      show win0_0.index t (0 : Fin 3) * 16 + 1 * b.val = win0_2.index t (1 : Fin 4) * 16 + 1 * b.val
      omega
    | ⟨1, _⟩ =>
      show win0_0.index t (1 : Fin 3) * 400 + 1 * r.val = win0_2.index t (2 : Fin 4) * 400 + 1 * r.val
      omega
    | ⟨2, _⟩ =>
      show win0_0.index t (2 : Fin 3) * 128 + 1 * d.val = d.val
      omega
  · show V m c main_arg1 (((cfg0.win 1).blk t).view.emb (ix3 (0 : Fin 1) d o)) = V m c main_arg1 _
    refine congrArg (V m c main_arg1) (funext fun a => Fin.ext ?_)
    match a with
    | ⟨0, _⟩ =>
      show win0_1.index t (0 : Fin 3) * 1 + 1 * 0 = win0_2.index t (0 : Fin 4) * 1 + 1 * u.val
      omega
    | ⟨1, _⟩ =>
      show win0_1.index t (1 : Fin 3) * 128 + 1 * d.val = d.val
      omega
    | ⟨2, _⟩ =>
      show win0_1.index t (2 : Fin 3) * 64 + 1 * o.val = win0_2.index t (3 : Fin 4) * 64 + 1 * o.val
      omega

/-- An index of the result array is in point t's block iff each coordinate is in the block's range on its axis. -/
theorem mem_blk (t : Fin cfg0.N) (i : S3x16x10000x64.Idx) :
    i ∈ ((cfg0.win 2).blk t).view.set ↔ ∀ a : Fin 4, win0_2.index t a * S1x16x400x64.size a ≤ (i a).val
      ∧ (i a).val < win0_2.index t a * S1x16x400x64.size a + S1x16x400x64.size a := by
  show i ∈ ((View.whole main_v0).slice (win0_2.rect t)).set ↔ _
  rw [View.set_slice_whole, Rect.mem_set_unit]
  exact Iff.rfl

/-- The blocks tile the array: (k, b, n, o) is in the block of the point with support block k and node block n / 400. -/
theorem covered (i : S3x16x10000x64.Idx) :
    ∃ t : Fin cfg0.N, (cfg0.win 2).flush t = true ∧ i ∈ ((cfg0.win 2).blk t).view.set := by
  have h0 : (i 0).val < 3 := (i 0).isLt
  have h1 : (i 1).val < 16 := (i 1).isLt
  have h2 : (i 2).val < 10000 := (i 2).isLt
  have h3 : (i 3).val < 64 := (i 3).isLt
  obtain ⟨t, ht⟩ := blockOnto ⟨(i 0).val, h0⟩ ⟨(i 2).val / 400, by omega⟩
  have q0 : win0_2.index t (0 : Fin 4) = (i 0).val := congrFun ht 0
  have q1 : win0_2.index t (1 : Fin 4) = 0 := congrFun ht 1
  have q2 : win0_2.index t (2 : Fin 4) = (i 2).val / 400 := congrFun ht 2
  have q3 : win0_2.index t (3 : Fin 4) = 0 := congrFun ht 3
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 16 ≤ (i 1).val ∧ (i 1).val < win0_2.index t (1 : Fin 4) * 16 + 16
    omega
  | ⟨2, _⟩ =>
    show win0_2.index t (2 : Fin 4) * 400 ≤ (i 2).val ∧ (i 2).val < win0_2.index t (2 : Fin 4) * 400 + 400
    omega
  | ⟨3, _⟩ =>
    show win0_2.index t (3 : Fin 4) * 64 ≤ (i 3).val ∧ (i 3).val < win0_2.index t (3 : Fin 4) * 64 + 64
    omega

/-- THE RESULT ARRAY after the run. -/
theorem final (c : Dev nD) :
    (dats m 0 c).arrAt 2 cfg0.N
      = featAll (m ((c : Thread nD τ).loc main_arg0)) (m ((c : Thread nD τ).loc main_arg1)) :=
  (dats m 0 c).arrAt_eq_of_cover 2 (featAll (V m c main_arg0) (V m c main_arg1)) (fun t _ => flushed_eq m c t) covered

end Cert.KernelIdeal.FeatValue

end
-- ==== Proof.AggTail.lean ====
/-
  The aggregation both programs apply to the transformed features, as ONE function of the three supports' feature
  arrays (node-major: [node, batch, feature]) and of the three edge-list arguments (values, rows, columns).
  For each support k: take row k of each edge list; a negative column index is shifted up by the number of nodes;
  gather the feature rows the columns name; scale edge e's row by value e; add the rows into a zero array at the
  nodes the rows name (a scatter-add); put the batch axis first. The three results are joined along the feature axis.
  Nothing here is opened by the proof: the two programs apply this same function, to feature arrays that are equal.
-/
import proofs.«150361_j3401614098844_1_alg».proof.Proof.Gen.KernelIdeal

noncomputable section

namespace Cert.KernelIdeal.Agg

open Idealize.ShloMosaic Idealize.SL.Sem Cert.KernelIdeal Cert.KernelIdeal.Gen

variable {F : FTy → Type} [FloatOps F]

set_option maxRecDepth 8192 in
/-- The aggregation of the three supports, joined along the feature axis. -/
def agg (p0 p1 p2 : (⟨S10000x16x64, .f32⟩ : BufTy).Contents (Elt F))
    (a2 : (⟨S3x160000, .f32⟩ : BufTy).Contents (Elt F))
    (a3 a4 : (⟨S3x160000, .i32⟩ : BufTy).Contents (Elt F)) : (⟨S16x10000x192, .f32⟩ : BufTy).Contents (Elt F) :=
  concatenate S16x10000x192 2 [⟨S16x10000x64, (transpose S16x10000x64 [1, 0, 2] (Host.scatterAdd scatter_S10000x16x64_S160000x1_S160000x16x64_12_0_0_1 (broadcastInDim S10000x16x64 ![] bcast_S_S10000x16x64 (constant S_ .f32 0x00000000#32)) (broadcastInDim S160000x1 ![0] bcast_S160000_S160000x1_0 (shapeCast _ (extractStridedSlice S1x160000 ![0, 0] a3 slices_S3x160000_S1x160000_0_0) shapeCasts_S1x160000_S160000)) (mulf (Host.gather gather_S10000x16x64_S160000x1_S160000x16x64_12_0_n_n_0_1_11664 p0 (broadcastInDim S160000x1 ![0] bcast_S160000_S160000x1_0 (select (cmpi .slt (shapeCast _ (extractStridedSlice S1x160000 ![0, 0] a4 slices_S3x160000_S1x160000_0_0) shapeCasts_S1x160000_S160000) (broadcastInDim S160000 ![] bcast_S_S160000 (constantI S_ 32 0#32))) (addi (shapeCast _ (extractStridedSlice S1x160000 ![0, 0] a4 slices_S3x160000_S1x160000_0_0) shapeCasts_S1x160000_S160000) (broadcastInDim S160000 ![] bcast_S_S160000 (constantI S_ 32 10000#32))) (shapeCast _ (extractStridedSlice S1x160000 ![0, 0] a4 slices_S3x160000_S1x160000_0_0) shapeCasts_S1x160000_S160000)))) (broadcastInDim S160000x16x64 ![0, 1, 2] bcast_S160000x1x1_S160000x16x64_0_1_2 (broadcastInDim S160000x1x1 ![0] bcast_S160000_S160000x1x1_0 (shapeCast _ (extractStridedSlice S1x160000 ![0, 0] a2 slices_S3x160000_S1x160000_0_0) shapeCasts_S1x160000_S160000))))) transposes_S10000x16x64_S16x10000x64_1_0_2)⟩, ⟨S16x10000x64, (transpose S16x10000x64 [1, 0, 2] (Host.scatterAdd scatter_S10000x16x64_S160000x1_S160000x16x64_12_0_0_1 (broadcastInDim S10000x16x64 ![] bcast_S_S10000x16x64 (constant S_ .f32 0x00000000#32)) (broadcastInDim S160000x1 ![0] bcast_S160000_S160000x1_0 (shapeCast _ (extractStridedSlice S1x160000 ![1, 0] a3 slices_S3x160000_S1x160000_1_0) shapeCasts_S1x160000_S160000)) (mulf (Host.gather gather_S10000x16x64_S160000x1_S160000x16x64_12_0_n_n_0_1_11664 p1 (broadcastInDim S160000x1 ![0] bcast_S160000_S160000x1_0 (select (cmpi .slt (shapeCast _ (extractStridedSlice S1x160000 ![1, 0] a4 slices_S3x160000_S1x160000_1_0) shapeCasts_S1x160000_S160000) (broadcastInDim S160000 ![] bcast_S_S160000 (constantI S_ 32 0#32))) (addi (shapeCast _ (extractStridedSlice S1x160000 ![1, 0] a4 slices_S3x160000_S1x160000_1_0) shapeCasts_S1x160000_S160000) (broadcastInDim S160000 ![] bcast_S_S160000 (constantI S_ 32 10000#32))) (shapeCast _ (extractStridedSlice S1x160000 ![1, 0] a4 slices_S3x160000_S1x160000_1_0) shapeCasts_S1x160000_S160000)))) (broadcastInDim S160000x16x64 ![0, 1, 2] bcast_S160000x1x1_S160000x16x64_0_1_2 (broadcastInDim S160000x1x1 ![0] bcast_S160000_S160000x1x1_0 (shapeCast _ (extractStridedSlice S1x160000 ![1, 0] a2 slices_S3x160000_S1x160000_1_0) shapeCasts_S1x160000_S160000))))) transposes_S10000x16x64_S16x10000x64_1_0_2)⟩, ⟨S16x10000x64, (transpose S16x10000x64 [1, 0, 2] (Host.scatterAdd scatter_S10000x16x64_S160000x1_S160000x16x64_12_0_0_1 (broadcastInDim S10000x16x64 ![] bcast_S_S10000x16x64 (constant S_ .f32 0x00000000#32)) (broadcastInDim S160000x1 ![0] bcast_S160000_S160000x1_0 (shapeCast _ (extractStridedSlice S1x160000 ![2, 0] a3 slices_S3x160000_S1x160000_2_0) shapeCasts_S1x160000_S160000)) (mulf (Host.gather gather_S10000x16x64_S160000x1_S160000x16x64_12_0_n_n_0_1_11664 p2 (broadcastInDim S160000x1 ![0] bcast_S160000_S160000x1_0 (select (cmpi .slt (shapeCast _ (extractStridedSlice S1x160000 ![2, 0] a4 slices_S3x160000_S1x160000_2_0) shapeCasts_S1x160000_S160000) (broadcastInDim S160000 ![] bcast_S_S160000 (constantI S_ 32 0#32))) (addi (shapeCast _ (extractStridedSlice S1x160000 ![2, 0] a4 slices_S3x160000_S1x160000_2_0) shapeCasts_S1x160000_S160000) (broadcastInDim S160000 ![] bcast_S_S160000 (constantI S_ 32 10000#32))) (shapeCast _ (extractStridedSlice S1x160000 ![2, 0] a4 slices_S3x160000_S1x160000_2_0) shapeCasts_S1x160000_S160000)))) (broadcastInDim S160000x16x64 ![0, 1, 2] bcast_S160000x1x1_S160000x16x64_0_1_2 (broadcastInDim S160000x1x1 ![0] bcast_S160000_S160000x1x1_0 (shapeCast _ (extractStridedSlice S1x160000 ![2, 0] a2 slices_S3x160000_S1x160000_2_0) shapeCasts_S1x160000_S160000))))) transposes_S10000x16x64_S16x10000x64_1_0_2)⟩] concatenates_S16x10000x64_S16x10000x64_S16x10000x64_S16x10000x192_d2

/-- Support k's transformed features, node-major, cut out of the launch's result (support, batch, node, feature): the
    batch and node axes exchanged, block k taken, its unit axis dropped. -/
def sup0 (O : (⟨S3x16x10000x64, .f32⟩ : BufTy).Contents (Elt F)) : (⟨S10000x16x64, .f32⟩ : BufTy).Contents (Elt F) :=
  shapeCast _ (extractStridedSlice S1x10000x16x64 ![0, 0, 0, 0] (transpose S3x10000x16x64 [0, 2, 1, 3] O transposes_S3x16x10000x64_S3x10000x16x64_0_2_1_3) slices_S3x10000x16x64_S1x10000x16x64_0_0_0_0) shapeCasts_S1x10000x16x64_S10000x16x64
def sup1 (O : (⟨S3x16x10000x64, .f32⟩ : BufTy).Contents (Elt F)) : (⟨S10000x16x64, .f32⟩ : BufTy).Contents (Elt F) :=
  shapeCast _ (extractStridedSlice S1x10000x16x64 ![1, 0, 0, 0] (transpose S3x10000x16x64 [0, 2, 1, 3] O transposes_S3x16x10000x64_S3x10000x16x64_0_2_1_3) slices_S3x10000x16x64_S1x10000x16x64_1_0_0_0) shapeCasts_S1x10000x16x64_S10000x16x64
def sup2 (O : (⟨S3x16x10000x64, .f32⟩ : BufTy).Contents (Elt F)) : (⟨S10000x16x64, .f32⟩ : BufTy).Contents (Elt F) :=
  shapeCast _ (extractStridedSlice S1x10000x16x64 ![2, 0, 0, 0] (transpose S3x10000x16x64 [0, 2, 1, 3] O transposes_S3x16x10000x64_S3x10000x16x64_0_2_1_3) slices_S3x10000x16x64_S1x10000x16x64_2_0_0_0) shapeCasts_S1x10000x16x64_S10000x16x64

end Cert.KernelIdeal.Agg

end
-- ==== Proof.KernelResult.lean ====
/-
  The program's result buffer after the 77 aggregation operations, from ANY contents of the buffers they read: the
  aggregation function applied to the three supports' slices of the launch's result and to the three edge-list
  arguments. (Each operation's result is read back at its own buffer; no operation is opened.)
-/
import proofs.«150361_j3401614098844_1_alg».proof.Proof.Gen.KernelIdeal.Launch
import proofs.«150361_j3401614098844_1_alg».proof.Proof.AggTail
import Idealize.ShloMosaic.Lib.StableHlo.Run

noncomputable section

namespace Cert.KernelIdeal.Agg

open Idealize.ShloMosaic Idealize.ShloMosaic.TcCoe Idealize.SL.Sem Idealize.ShloMosaic.StableHlo
open Cert.KernelIdeal Cert.KernelIdeal.Gen

variable {F : FTy → Type} [FloatOps F]

set_option maxRecDepth 8192 in
set_option maxHeartbeats 32800000 in
/-- The result buffer after the aggregation line run from the contents `X`. -/
theorem tail_result (X : Valuation τ sig (Elt F)) :
    StableHlo.after hostOps1 X (Proc.devRef .tc main_v68)
      = agg (sup0 (X (Proc.devRef .tc main_v0))) (sup1 (X (Proc.devRef .tc main_v0))) (sup2 (X (Proc.devRef .tc main_v0)))
          (X (Proc.devRef .tc main_arg2)) (X (Proc.devRef .tc main_arg3)) (X (Proc.devRef .tc main_arg4)) := by
  after_results_simp <;> rfl <;> (unfold agg sup0 sup1 sup2; rfl)

end Cert.KernelIdeal.Agg

end
-- ==== Proof.FeatBridge.lean ====
/-
  The one place the two programs differ: how each support's transformed features are computed. The kernel computes all
  three supports in one launch, (support, batch, node, feature), and the host then exchanges the batch and node axes
  and cuts support k out; the reference contracts W's k-th matrix with x's feature axis, getting (feature, batch,
  node), and reverses the axes. Both are, at (node n, batch b, feature o), the sum over the input features d of
  x(b, n, d) and W(k, d, o) multiplied — in the two orders, which the extended reals' commutative product identifies.
-/
import proofs.«150361_j3401614098844_1_alg».proof.Proof.Gen.ReferenceIdeal.Read
import proofs.«150361_j3401614098844_1_alg».proof.Proof.AggTail
import proofs.«150361_j3401614098844_1_alg».proof.Proof.FeatSpec
import Idealize.ShloMosaic.Lib.ValueLayout
import Idealize.ShloMosaic.Lib.Pipeline.Value

noncomputable section

namespace Cert.KernelIdeal.FeatValue

open Idealize.ShloMosaic Idealize.ShloMosaic.ValueIdx Idealize.ShloMosaic.Pipeline
open Cert.KernelIdeal Cert.KernelIdeal.Agg
open scoped BigOperators

/-- Support 0's slice of a (support, batch, node, feature) array, at (n, b, o), is the array at (0, b, n, o). -/
theorem sup0_apply (O : S3x16x10000x64.Idx → EReal) (n : Fin 10000) (b : Fin 16) (o : Fin 64) :
    sup0 (F := Ideal) O (ix3 n b o) = O (ix4 (0 : Fin 3) b n o) := by
  unfold sup0
  refine (shapeCast_1abc_abc_apply _ _ n b o).trans ?_
  refine (extractStridedSlice_apply _ _ _ (ix4 (0 : Fin 1) n b o) (ix4 (0 : Fin 3) n b o) (fun a => match a with
    | ⟨0, _⟩ => rfl
    | ⟨1, _⟩ => by show n.val = 0 + n.val; omega
    | ⟨2, _⟩ => by show b.val = 0 + b.val; omega
    | ⟨3, _⟩ => by show o.val = 0 + o.val; omega)).trans ?_
  exact transpose_apply _ _ _ (ix4 (0 : Fin 3) n b o) (ix4 (0 : Fin 3) b n o) (fun a => match a with
    | ⟨0, _⟩ => rfl
    | ⟨1, _⟩ => rfl
    | ⟨2, _⟩ => rfl
    | ⟨3, _⟩ => rfl)

/-- Support 1's slice of a (support, batch, node, feature) array, at (n, b, o), is the array at (1, b, n, o). -/
theorem sup1_apply (O : S3x16x10000x64.Idx → EReal) (n : Fin 10000) (b : Fin 16) (o : Fin 64) :
    sup1 (F := Ideal) O (ix3 n b o) = O (ix4 (1 : Fin 3) b n o) := by
  unfold sup1
  refine (shapeCast_1abc_abc_apply _ _ n b o).trans ?_
  refine (extractStridedSlice_apply _ _ _ (ix4 (0 : Fin 1) n b o) (ix4 (1 : Fin 3) n b o) (fun a => match a with
    | ⟨0, _⟩ => rfl
    | ⟨1, _⟩ => by show n.val = 0 + n.val; omega
    | ⟨2, _⟩ => by show b.val = 0 + b.val; omega
    | ⟨3, _⟩ => by show o.val = 0 + o.val; omega)).trans ?_
  exact transpose_apply _ _ _ (ix4 (1 : Fin 3) n b o) (ix4 (1 : Fin 3) b n o) (fun a => match a with
    | ⟨0, _⟩ => rfl
    | ⟨1, _⟩ => rfl
    | ⟨2, _⟩ => rfl
    | ⟨3, _⟩ => rfl)

/-- Support 2's slice of a (support, batch, node, feature) array, at (n, b, o), is the array at (2, b, n, o). -/
theorem sup2_apply (O : S3x16x10000x64.Idx → EReal) (n : Fin 10000) (b : Fin 16) (o : Fin 64) :
    sup2 (F := Ideal) O (ix3 n b o) = O (ix4 (2 : Fin 3) b n o) := by
  unfold sup2
  refine (shapeCast_1abc_abc_apply _ _ n b o).trans ?_
  refine (extractStridedSlice_apply _ _ _ (ix4 (0 : Fin 1) n b o) (ix4 (2 : Fin 3) n b o) (fun a => match a with
    | ⟨0, _⟩ => rfl
    | ⟨1, _⟩ => by show n.val = 0 + n.val; omega
    | ⟨2, _⟩ => by show b.val = 0 + b.val; omega
    | ⟨3, _⟩ => by show o.val = 0 + o.val; omega)).trans ?_
  exact transpose_apply _ _ _ (ix4 (2 : Fin 3) n b o) (ix4 (2 : Fin 3) b n o) (fun a => match a with
    | ⟨0, _⟩ => rfl
    | ⟨1, _⟩ => rfl
    | ⟨2, _⟩ => rfl
    | ⟨3, _⟩ => rfl)

/-- Support 0: the slice of the kernel's features is the reference's feature array. At (n, b, o) the kernel's side is
    the sum over d of x(b, n, d) · W(0, d, o); the reference's is the sum over d of W(0, d, o) · x(b, n, d), its matrix
    read through a slice and a reshape whose index arithmetic (d · 64 + o split by 64) gives (d, o) back. -/
theorem sup0_feat (x : S16x10000x128.Idx → EReal) (W : S3x128x64.Idx → EReal) :
    sup0 (F := Ideal) (featAll x W) = Cert.ReferenceIdeal.Read.val_main_v3 (F := Ideal) x W := by
  funext i
  obtain ⟨n, b, o, rfl⟩ : ∃ (n : Fin 10000) (b : Fin 16) (o : Fin 64), i = ix3 n b o := ⟨i 0, i 1, i 2, eq_ix3 i⟩
  rw [sup0_apply, featAll_apply, Cert.ReferenceIdeal.Read.val_main_v3_apply, Cert.ReferenceIdeal.Read.val_main_v2_apply]
  refine Finset.sum_congr rfl fun d _ => ?_
  rw [Cert.ReferenceIdeal.Read.val_main_v1_apply, Cert.ReferenceIdeal.Read.val_main_v0_apply, mul_comm]
  have hd : d.val < 128 := d.isLt
  have ho : o.val < 64 := o.isLt
  congr 1
  · refine congrArg W (funext fun a => Fin.ext ?_)
    match a with
    | ⟨0, _⟩ => rfl
    | ⟨1, _⟩ => show d.val = (d.val * 64 + o.val) / 64 % 128; omega
    | ⟨2, _⟩ => show o.val = (d.val * 64 + o.val) % 64; omega
  · refine congrArg x (funext fun a => Fin.ext ?_)
    match a with
    | ⟨0, _⟩ => rfl
    | ⟨1, _⟩ => rfl
    | ⟨2, _⟩ => rfl

/-- Support 1: the slice of the kernel's features is the reference's feature array. At (n, b, o) the kernel's side is
    the sum over d of x(b, n, d) · W(1, d, o); the reference's is the sum over d of W(1, d, o) · x(b, n, d), its matrix
    read through a slice and a reshape whose index arithmetic (d · 64 + o split by 64) gives (d, o) back. -/
theorem sup1_feat (x : S16x10000x128.Idx → EReal) (W : S3x128x64.Idx → EReal) :
    sup1 (F := Ideal) (featAll x W) = Cert.ReferenceIdeal.Read.val_main_v27 (F := Ideal) x W := by
  funext i
  obtain ⟨n, b, o, rfl⟩ : ∃ (n : Fin 10000) (b : Fin 16) (o : Fin 64), i = ix3 n b o := ⟨i 0, i 1, i 2, eq_ix3 i⟩
  rw [sup1_apply, featAll_apply, Cert.ReferenceIdeal.Read.val_main_v27_apply, Cert.ReferenceIdeal.Read.val_main_v26_apply]
  refine Finset.sum_congr rfl fun d _ => ?_
  rw [Cert.ReferenceIdeal.Read.val_main_v25_apply, Cert.ReferenceIdeal.Read.val_main_v24_apply, mul_comm]
  have hd : d.val < 128 := d.isLt
  have ho : o.val < 64 := o.isLt
  congr 1
  · refine congrArg W (funext fun a => Fin.ext ?_)
    match a with
    | ⟨0, _⟩ => rfl
    | ⟨1, _⟩ => show d.val = (d.val * 64 + o.val) / 64 % 128; omega
    | ⟨2, _⟩ => show o.val = (d.val * 64 + o.val) % 64; omega
  · refine congrArg x (funext fun a => Fin.ext ?_)
    match a with
    | ⟨0, _⟩ => rfl
    | ⟨1, _⟩ => rfl
    | ⟨2, _⟩ => rfl

/-- Support 2: the slice of the kernel's features is the reference's feature array. At (n, b, o) the kernel's side is
    the sum over d of x(b, n, d) · W(2, d, o); the reference's is the sum over d of W(2, d, o) · x(b, n, d), its matrix
    read through a slice and a reshape whose index arithmetic (d · 64 + o split by 64) gives (d, o) back. -/
theorem sup2_feat (x : S16x10000x128.Idx → EReal) (W : S3x128x64.Idx → EReal) :
    sup2 (F := Ideal) (featAll x W) = Cert.ReferenceIdeal.Read.val_main_v51 (F := Ideal) x W := by
  funext i
  obtain ⟨n, b, o, rfl⟩ : ∃ (n : Fin 10000) (b : Fin 16) (o : Fin 64), i = ix3 n b o := ⟨i 0, i 1, i 2, eq_ix3 i⟩
  rw [sup2_apply, featAll_apply, Cert.ReferenceIdeal.Read.val_main_v51_apply, Cert.ReferenceIdeal.Read.val_main_v50_apply]
  refine Finset.sum_congr rfl fun d _ => ?_
  rw [Cert.ReferenceIdeal.Read.val_main_v49_apply, Cert.ReferenceIdeal.Read.val_main_v48_apply, mul_comm]
  have hd : d.val < 128 := d.isLt
  have ho : o.val < 64 := o.isLt
  congr 1
  · refine congrArg W (funext fun a => Fin.ext ?_)
    match a with
    | ⟨0, _⟩ => rfl
    | ⟨1, _⟩ => show d.val = (d.val * 64 + o.val) / 64 % 128; omega
    | ⟨2, _⟩ => show o.val = (d.val * 64 + o.val) % 64; omega
  · refine congrArg x (funext fun a => Fin.ext ?_)
    match a with
    | ⟨0, _⟩ => rfl
    | ⟨1, _⟩ => rfl
    | ⟨2, _⟩ => rfl

end Cert.KernelIdeal.FeatValue

end
-- ==== Proof.KernelValue.lean ====
/-
  The idealized kernel's run with its result named: the aggregation function applied to the reference's own three
  feature arrays of x and W and to the three edge-list arguments.

  The run (proved for any float instance) ends with the result at the aggregation line applied to the launch's exit
  contents. There the launch's result array is `featAll x W` (the blocks the grid wrote back tile it), the arguments
  are as launched (the line and the launch write none of them), and each support's slice of `featAll x W` is the
  reference's feature array for that support.
-/
import proofs.«150361_j3401614098844_1_alg».proof.Proof.FeatRunIdeal
import proofs.«150361_j3401614098844_1_alg».proof.Proof.FeatArray
import proofs.«150361_j3401614098844_1_alg».proof.Proof.KernelResult
import proofs.«150361_j3401614098844_1_alg».proof.Proof.FeatBridge

noncomputable section

namespace Cert.KernelIdeal.FeatValue

open Idealize.ShloMosaic Idealize.ShloMosaic.TcCoe Idealize.SL.Sem
open Cert.KernelIdeal Cert.KernelIdeal.Gen Cert.KernelIdeal.FeatRun Cert.KernelIdeal.Agg

variable (m : (ℓ : Loc nD τ sig) → Buf (Elt Ideal) ℓ) (ρ : Dev nD → PrngReg)

/-- At the launch's exit its result array holds what the grid wrote back; -/
theorem exit_v0 (c : Dev nD) : exitVal m c (Proc.devRef .tc main_v0) = (dats m 0 c).arrAt 2 cfg0.N :=
  Pipeline.withArrays_arr spec0 launch0.win.arr_inj c (V0 m c) _ 2
/-- and the edge-list arguments, which are no array of the launch, are as launched. -/
theorem exit_arg2 (c : Dev nD) : exitVal m c (Proc.devRef .tc main_arg2) = m ((c : Thread nD τ).loc main_arg2) :=
  Pipeline.withArrays_of_ne spec0 c (V0 m c) _ main_arg2 (by decide)
theorem exit_arg3 (c : Dev nD) : exitVal m c (Proc.devRef .tc main_arg3) = m ((c : Thread nD τ).loc main_arg3) :=
  Pipeline.withArrays_of_ne spec0 c (V0 m c) _ main_arg3 (by decide)
theorem exit_arg4 (c : Dev nD) : exitVal m c (Proc.devRef .tc main_arg4) = m ((c : Thread nD τ).loc main_arg4) :=
  Pipeline.withArrays_of_ne spec0 c (V0 m c) _ main_arg4 (by decide)

/-- The result both programs end with, as a function of the launch contents of the five arguments. -/
def result (c : Dev nD) : Buf (Elt Ideal) ((c.tc : Thread nD τ).loc main_v68) :=
  agg
    (Cert.ReferenceIdeal.Read.val_main_v3 (F := Ideal) (m ((c : Thread nD τ).loc main_arg0)) (m ((c : Thread nD τ).loc main_arg1)))
    (Cert.ReferenceIdeal.Read.val_main_v27 (F := Ideal) (m ((c : Thread nD τ).loc main_arg0)) (m ((c : Thread nD τ).loc main_arg1)))
    (Cert.ReferenceIdeal.Read.val_main_v51 (F := Ideal) (m ((c : Thread nD τ).loc main_arg0)) (m ((c : Thread nD τ).loc main_arg1)))
    (m ((c : Thread nD τ).loc main_arg2)) (m ((c : Thread nD τ).loc main_arg3)) (m ((c : Thread nD τ).loc main_arg4))

/-- The aggregation line run from the launch's exit contents gives that result. -/
theorem tail_value (c : Dev nD) :
    StableHlo.after hostOps1 (exitVal m c) (Proc.devRef .tc main_v68) = result m c := by
  refine (tail_result (exitVal m c)).trans ?_
  rw [exit_v0 m c, exit_arg2 m c, exit_arg3 m c, exit_arg4 m c, final m c, sup0_feat, sup1_feat, sup2_feat]
  rfl

/-- THE VALUE RUN of the idealized kernel. -/
theorem value_run : θ_run defs (onTc (τ := τ) (main (F := Ideal))) ⟨m, fun _ => 0, ρ⟩ (fun r => ∀ c : Dev nD,
      r.2.mem ((c.tc : Thread nD τ).loc main_v68) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (tail_value m c), (h c).2⟩) (Cert.KernelIdeal.FeatRun.run (F := Ideal) m ρ)

end Cert.KernelIdeal.FeatValue

end
-- ==== Proof.RefResult.lean ====
/-
  The reference's result as the same aggregation function: of its own three feature arrays (for support k: W's k-th
  matrix contracted with x's feature axis, then the axes reversed to node-major) and of the three edge-list arguments.
  The two sides are the same composed operations, so the equation holds by unfolding the names.
-/
import proofs.«150361_j3401614098844_1_alg».proof.Proof.Gen.ReferenceIdeal.Read
import proofs.«150361_j3401614098844_1_alg».proof.Proof.AggTail

noncomputable section

namespace Cert.ReferenceIdeal.RefValue

open Idealize.ShloMosaic Idealize.ShloMosaic.TcCoe Idealize.SL.Sem
open Cert.ReferenceIdeal

variable {F : FTy → Type} [FloatOps F]

set_option maxRecDepth 8192 in
set_option maxHeartbeats 4000000 in
/-- The reference's result is the aggregation of its three feature arrays. -/
theorem result_eq (m : (ℓ : Loc nD τ sig) → Buf (Elt F) ℓ) (c : Dev nD) :
    Cert.ReferenceIdeal.Value.res_main_v72 (F := F) m c
      = Cert.KernelIdeal.Agg.agg
          (Read.val_main_v3 (F := F) (m ((c.tc : Thread nD τ).loc main_arg0)) (m ((c.tc : Thread nD τ).loc main_arg1)))
          (Read.val_main_v27 (F := F) (m ((c.tc : Thread nD τ).loc main_arg0)) (m ((c.tc : Thread nD τ).loc main_arg1)))
          (Read.val_main_v51 (F := F) (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) := by
  unfold Cert.ReferenceIdeal.Value.res_main_v72 Cert.KernelIdeal.Agg.agg
    Read.val_main_v3 Read.val_main_v2 Read.val_main_v1 Read.val_main_v0
    Read.val_main_v27 Read.val_main_v26 Read.val_main_v25 Read.val_main_v24
    Read.val_main_v51 Read.val_main_v50 Read.val_main_v49 Read.val_main_v48
  rfl

end Cert.ReferenceIdeal.RefValue

end
-- ==== Proof.lean ====
/-
  The certificate of a graph convolution: for each of three supports, features x (16 batches, 10000 nodes, 128
  features) are multiplied by the support's 128 x 64 weight matrix, and the result is aggregated along the support's
  edge list (gather the rows the columns name, scale by the edge values, add into the rows the rows name); the three
  aggregates are joined along the feature axis.

  The kernel computes the three products in one launch over a 25 x 3 grid and the aggregation on the host; the reference
  computes each product by a contraction on the host and the same aggregation. On the extended reals the two products
  are one sum of products up to the order of the two factors; the aggregation is the same function on both sides, and
  it is never opened. No finiteness of the inputs is used.

  The frames: the kernel's run (at either float instance) ends, faults nowhere, and leaves the five arguments as
  launched — the launch's body writes only its staging buffers, the write-backs only the launch's result, the 77 host
  operations after it only their own fresh buffers; the reference's run is its operations composed.
-/
import proofs.«150361_j3401614098844_1_alg».proof.Defs
import proofs.«150361_j3401614098844_1_alg».proof.Proof.Gen.Kernel
import proofs.«150361_j3401614098844_1_alg».proof.Proof.Gen.KernelIdeal
import proofs.«150361_j3401614098844_1_alg».proof.Proof.Gen.ReferenceIdeal
import proofs.«150361_j3401614098844_1_alg».proof.Proof.Gen.ReferenceIdeal.Run
import proofs.«150361_j3401614098844_1_alg».proof.Proof.Gen.ReferenceIdeal.Read
import proofs.«150361_j3401614098844_1_alg».proof.Proof.Gen.Pre_finite_inputs
import proofs.«150361_j3401614098844_1_alg».proof.Proof.FeatRunBits
import proofs.«150361_j3401614098844_1_alg».proof.Proof.FeatRunIdeal
import proofs.«150361_j3401614098844_1_alg».proof.Proof.KernelValue
import proofs.«150361_j3401614098844_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs to its end and keeps its arguments. -/
theorem frame_kernel : Cert.frame_Kernel := fun m ρ _ =>
  (θ_run Cert.Kernel.defs _ _).mono (fun _ h c => (h c).2) (Cert.Kernel.FeatRun.run (F := Bits) m ρ)

/-- So does the idealized kernel. -/
theorem frame_kernelIdeal : Cert.frame_KernelIdeal := fun m ρ _ =>
  (θ_run Cert.KernelIdeal.defs _ _).mono (fun _ h c => (h c).2) (Cert.KernelIdeal.FeatRun.run (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with one result: the aggregation of
    the reference's three feature arrays. -/
theorem algebraic : Cert.algebraic_KernelIdeal_ReferenceIdeal := by
  intro m ρ m' ρ' _ hagree
  refine ⟨fun c => Cert.KernelIdeal.FeatValue.result m c, Cert.KernelIdeal.FeatValue.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c, (hagree c).1, (hagree c).2.1, (hagree c).2.2.1, (hagree c).2.2.2.1,
    (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
